-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S4x2048 : Shape := ⟨2, ![4, 2048]⟩
abbrev S1x512x2048 : Shape := ⟨3, ![1, 512, 2048]⟩
abbrev S1x8x2048 : Shape := ⟨3, ![1, 8, 2048]⟩
abbrev S512x2048 : Shape := ⟨2, ![512, 2048]⟩
abbrev S8x2048 : Shape := ⟨2, ![8, 2048]⟩
abbrev S520x2048 : Shape := ⟨2, ![520, 2048]⟩
abbrev S1x2048 : Shape := ⟨2, ![1, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x2048, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S4x2048, .f32⟩
  | .local _ .vmem, ⟨5, _⟩ => ⟨S1x512x2048, .f32⟩
  | .local _ .vmem, ⟨6, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  concatenates_S8x2048_S512x2048_S520x2048_d0 : Shape.Concatenates [S8x2048, S512x2048] S520x2048 0
  slices_S520x2048_o5_0_S512x2048 : S520x2048.Slices ![5, 0] S512x2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  shapeCasts_S1x2048_S1x2048 : S1x2048.ShapeCasts S1x2048
  broadcasts_S1x2048_S512x2048 : S1x2048.Broadcasts S512x2048
  slices_S520x2048_o6_0_S512x2048 : S520x2048.Slices ![6, 0] S512x2048
  inb_S4x2048_S1x2048_1_0 : ∀ a, (![1, 0] : Fin 2 → Nat) a + S1x2048.size a ≤ S4x2048.size a
  slices_S520x2048_o7_0_S512x2048 : S520x2048.Slices ![7, 0] S512x2048
  inb_S4x2048_S1x2048_2_0 : ∀ a, (![2, 0] : Fin 2 → Nat) a + S1x2048.size a ≤ S4x2048.size a
  slices_S520x2048_o8_0_S512x2048 : S520x2048.Slices ![8, 0] S512x2048
  inb_S4x2048_S1x2048_3_0 : ∀ a, (![3, 0] : Fin 2 → Nat) a + S1x2048.size a ≤ S4x2048.size a
  shapeCasts_S512x2048_S1x512x2048 : S512x2048.ShapeCasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S4x4096x2048.size a
  hwx0_1 : ∀ i : grid0.Coords, EltTy.bits .f32 = 32 ∨ (Rect.block (s := S4x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x2048.size a
  hwx0_3 : ∀ i : grid0.Coords, EltTy.bits .f32 = 32 ∨ (Rect.block (s := S4x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S2048x1, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048x1, .f32⟩
  | .hbm, ⟨20, _⟩ => ⟨S2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S2048x1, .f32⟩
  | .hbm, ⟨27, _⟩ => ⟨S2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.TileRun.lean ====
/-
  The causal four-tap filter, one tile at a time: that every tile's run ends, faults nowhere and leaves the
  argument arrays as they were, stated for any float instance.

  The launch walks a grid of 4 batches by 8 row tiles. At tile (b, i) the body is handed three read-only blocks —
  rows 512 i … 512 i + 511 of batch b of the signal (the tile itself), the eight rows just before the tile
  (rows 512 i - 8 … 512 i - 1, or rows 0 … 7 at i = 0, where the body replaces them by zeros), and the whole 4 by
  2048 transposed filter — and one block to fill, the tile of the result. The tile and its eight-row lead are two
  windows on ONE array, the signal: the array's ownership is therefore split in two halves, one per window, each
  enough to read; both halves are handed back after the last tile and recombine to the whole array, unchanged.
-/
import proofs.«163371_j41575283425757_1_alg».proof.Proof.Gen.KernelIdeal.Launch
import proofs.«163371_j41575283425757_1_alg».proof.Proof.Gen.KernelIdeal.Skeleton
import proofs.«163371_j41575283425757_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.TileRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- The buffers when the launch begins: the arguments as given, and the filter transposed to 4 by 2048. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the transposition followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transposition writes neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-! ## A window's block at a tile -/

/-- Window w's block at grid point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A read-only window holds its block whenever the body runs, refetched or not: where it is not refetched its
    block index has not moved (the filter's never does). -/
theorem before_tile_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_lead_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_filter_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What one tile's body reads and writes -/

/-- The whole 1 by 512 by 2048 tile, the whole 1 by 8 by 2048 lead, and row j of the 4 by 2048 filter. -/
abbrev rTile : Rect S1x512x2048 := Rect.unit (s := S1x512x2048) ![0, 0, 0] S1x512x2048.size Gen.inb_S1x512x2048_S1x512x2048_0_0_0
abbrev rLead : Rect S1x8x2048 := Rect.unit (s := S1x8x2048) ![0, 0, 0] S1x8x2048.size Gen.inb_S1x8x2048_S1x8x2048_0_0_0
abbrev rTap0 : Rect S4x2048 := Rect.unit (s := S4x2048) ![0, 0] S1x2048.size Gen.inb_S4x2048_S1x2048_0_0
abbrev rTap1 : Rect S4x2048 := Rect.unit (s := S4x2048) ![1, 0] S1x2048.size Gen.inb_S4x2048_S1x2048_1_0
abbrev rTap2 : Rect S4x2048 := Rect.unit (s := S4x2048) ![2, 0] S1x2048.size Gen.inb_S4x2048_S1x2048_2_0
abbrev rTap3 : Rect S4x2048 := Rect.unit (s := S4x2048) ![3, 0] S1x2048.size Gen.inb_S4x2048_S1x2048_3_0

/-- The result tile the body stores, from the three blocks it read: the four taps' weighted sum of the lead
    (zeroed on a batch's first tile) followed by the tile, shifted by 5 … 8 rows. One store of the whole block. -/
def tileOut (i : grid0.Coords) (x0 : Vec F S1x512x2048 .f32) (x1 : Vec F S1x8x2048 .f32) (x2 : Vec F S4x2048 .f32) : Vec F S1x512x2048 .f32 :=
  View.canon [⟨rTile, k0_pay1 (k0_pay2 i (View.ld x0 rTile) (View.ld x1 rLead) (View.ld x2 rTap0) (View.ld x2 rTap1) (View.ld x2 rTap2) (View.ld x2 rTap3))⟩]

/-- The one store fills the block. -/
theorem tileOut_cover (p0 : Vec F S1x512x2048 .f32) (y : S1x512x2048.Idx) :
    ∃ pc ∈ ([⟨rTile, p0⟩] : List (View.Piece (Elt F) S1x512x2048 .f32)), y ∈ pc.1.set :=
  View.cover_of_tiled [⟨rTile, p0⟩] S1x512x2048.size (by rfl) y

set_option maxHeartbeats 1000000 in
/-- The body on whole staging buffers: the three it reads are left as found, the result's holds the tile's sum. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileOut_cover _)

/-! ## The launch's bookkeeping -/

/-- Per tile: each read-only window's buffer is left holding its block, the result's the tile's sum. Between tiles
    nothing is kept. The signal is held in two halves, the tile window's and the lead window's; the filter and the
    result whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => (fullShare : PosShare TreeShare).left
    | ⟨1, _⟩ => (fullShare : PosShare TreeShare).right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_lead (c : Dev nD) (t : Fin cfg0.N) : (dats m 0 c).after 1 t = iblk m c 1 t := by dsimp only [dats]
theorem after_filter (c : Dev nD) (t : Fin cfg0.N) : (dats m 0 c).after 2 t = iblk m c 2 t := by dsimp only [dats]
theorem after_out (c : Dev nD) (t : Fin cfg0.N) :
    (dats m 0 c).after 3 t = tileOut (grid0.coords t) (iblk m c 0 t) (iblk m c 1 t) (iblk m c 2 t) := by dsimp only [dats]

theorem before_tile (c : Dev nD) (t : Fin cfg0.N) (d) : (dats m 0 c).before 0 t d = iblk m c 0 t :=
  before_tile_of m (dats m 0 c) (A_eq m c 0) (after_tile m c) t d
theorem before_lead (c : Dev nD) (t : Fin cfg0.N) (d) : (dats m 0 c).before 1 t d = iblk m c 1 t :=
  before_lead_of m (dats m 0 c) (A_eq m c 1) (after_lead m c) t d
theorem before_filter (c : Dev nD) (t : Fin cfg0.N) (d) : (dats m 0 c).before 2 t d = iblk m c 2 t :=
  before_filter_of m (dats m 0 c) (A_eq m c 2) (after_filter m c) t d

/-- What the body is called with at tile t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tile, before_lead, before_filter]
  rw [show (dats m 0 c).Φ t.succ = (dats m 0 c).Φ t.castSucc from rfl,
    show (dats m 0 c).owesAt () t.succ = (dats m 0 c).owesAt () t.castSucc from rfl,
    after_tile, after_lead, after_filter, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The signal's two halves -/

/-- The three buffers behind the four windows, each held whole, are the four windows' arrays: the signal's
    ownership split into its left and right halves, one for the tile window and one for the lead window. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have listed (Φ : Ref sig .tc → sProp 𝕄) : bigSep (Finset.univ.image (Pipeline.arrRef spec0)) Φ
      = iprop(Φ main_arg0 ∗ Φ main_v0 ∗ Φ main_v1) :=
    bigSep_eq_bigSepL_of_eq [main_arg0, main_v0, main_v1] (by decide) (by decide) Φ
  unfold Pipeline.arrBufs Dat.arrays
  rw [listed, bigSep_W0]
  have w0 : (cfg0.win 0).arr.IsWhole := arr_whole0 0
  have w2 : (cfg0.win 2).arr.IsWhole := arr_whole0 2
  have w3 : (cfg0.win 3).arr.IsWhole := arr_whole0 3
  have s0 : (dats m 0 c).share 0 = (fullShare : PosShare TreeShare).left := rfl
  have s1 : (dats m 0 c).share 1 = (fullShare : PosShare TreeShare).right := rfl
  have s2 : (dats m 0 c).share 2 = fullShare := rfl
  have s3 : (dats m 0 c).share 3 = fullShare := rfl
  rw [w0.set_eq_univ, w2.set_eq_univ, w3.set_eq_univ, s0, s1, s2, s3]
  have halves : (((c.tc : Thread nD τ).loc main_arg0) ↦{fullShare} V m c main_arg0 : sProp 𝕄)
      ⊢ iprop((((c.tc : Thread nD τ).loc main_arg0) ↦{(fullShare : PosShare TreeShare).left} V m c main_arg0)
          ∗ (((c.tc : Thread nD τ).loc main_arg0) ↦{(fullShare : PosShare TreeShare).right} V m c main_arg0)) :=
    (pointsTo_share (PosShare.mem_left_op_right fullShare)).1
  iintro ⟨Hx, Hw, Ho⟩
  ihave Hx2 := halves $$ Hx
  icases Hx2 with ⟨Hl, Hr⟩
  isplitl [Hl]; · iexact Hl
  isplitl [Hr]; · iexact Hr
  isplitl [Hw]; · iexact Hw
  iexact Ho

/-! ## The launch, and the arguments afterwards -/

/-- Between tiles the body keeps nothing of its own: what it is lent at the start is what it gives back. -/
theorem kept_in (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  dsimp only [dats]
  iintro ⟨-, H⟩
  iexact H
theorem kept_out (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  dsimp only [dats]
  iintro H
  isplitr
  · iempintro
  iexact H

set_option backward.isDefEq.respectTransparency.types false in
/-- Every fair run of the program ends without a fault; afterwards every window's array holds what the tiles'
    write-backs made of it, and every other buffer what it held when the launch began. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := Entails.of_eq (ownU_emb₁ _))
    (V := V m) (hmain := hmain m Variants.none)
    (hsplit := arrays_split m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => by
      iintro H
      isplitr
      · iempintro
      iexact H)
    (hin := kept_in m) (hout := kept_out m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The two arguments end as they began: the signal is read-only in both its windows, and the filter is touched by
    the transposition's read alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.TileRun

end
-- ==== Proof.TapSum.lean ====
/-
  What both programs compute, as one function of the two argument arrays over the extended reals.

  The signal x has 4 batches of 4096 rows of 2048 channels; the filter w gives each channel d four taps w[d, 0..3].
  Write x̄ for the signal delayed by three rows within its batch: x̄[b, s, d] = x[b, s - 3, d] for 3 ≤ s, and 0 on
  the three rows before the signal starts. The result at (b, t, d) is the causal four-tap sum

      x̄[b, t, d] · w[d, 0] + x̄[b, t + 1, d] · w[d, 1] + x̄[b, t + 2, d] · w[d, 2] + x̄[b, t + 3, d] · w[d, 3],

  that is, the taps meet rows t - 3, t - 2, t - 1, t of the signal, rows before the start counting as zero. The sum
  is associated to the left, the order in which both programs add.
-/
import Idealize.ShloMosaic.PureOps.Ideal
import Idealize.ShloMosaic.Lib.ValueIdx

noncomputable section

namespace Cert.TapSum

open Idealize.ShloMosaic Idealize.ShloMosaic.ValueIdx

/-- The signal's and the filter's shapes. -/
abbrev Sig : Shape := ⟨3, ![4, 4096, 2048]⟩
abbrev Taps : Shape := ⟨2, ![2048, 4]⟩

/-- Row s of batch b of the signal delayed by three rows, at channel d: zero before the signal starts. -/
def delayed (x : Sig.Idx → EReal) (b : Fin 4) (s : ℕ) (d : Fin 2048) : EReal :=
  if h : 3 ≤ s ∧ s - 3 < 4096 then x (ix3 b ⟨s - 3, h.2⟩ d) else 0

theorem delayed_of_le (x : Sig.Idx → EReal) (b : Fin 4) (s : ℕ) (d : Fin 2048) (h : 3 ≤ s) (h' : s - 3 < 4096) :
    delayed x b s d = x (ix3 b ⟨s - 3, h'⟩ d) := by
  unfold delayed; rw [dif_pos ⟨h, h'⟩]

theorem delayed_of_lt (x : Sig.Idx → EReal) (b : Fin 4) (s : ℕ) (d : Fin 2048) (h : s < 3) :
    delayed x b s d = 0 := by
  unfold delayed; rw [dif_neg (fun hh => by omega)]

/-- The causal four-tap sum at batch b, row t, channel d. -/
def causal (x : Sig.Idx → EReal) (w : Taps.Idx → EReal) (b : Fin 4) (t : Fin 4096) (d : Fin 2048) : EReal :=
  delayed x b (t.val + 0) d * w (ix2 d 0) + delayed x b (t.val + 1) d * w (ix2 d 1)
    + delayed x b (t.val + 2) d * w (ix2 d 2) + delayed x b (t.val + 3) d * w (ix2 d 3)

/-- The whole result array. -/
def filtered (x : Sig.Idx → EReal) (w : Taps.Idx → EReal) : Sig.Idx → EReal :=
  fun i => causal x w (i 0) (i 1) (i 2)

theorem filtered_apply (x : Sig.Idx → EReal) (w : Taps.Idx → EReal) (b : Fin 4) (t : Fin 4096) (d : Fin 2048) :
    filtered x w (ix3 b t d) = causal x w b t d := rfl

end Cert.TapSum

end
-- ==== Proof.TileValue.lean ====
/-
  What the tiles write, read as the causal four-tap sum.

  At tile (b, i) the body joins the eight rows before the tile (zeroed when i = 0, where no row precedes the signal)
  with the tile's 512 rows into 520 rows, so that joined row q is signal row 512 i - 8 + q of batch b, rows before the
  signal's start counting as zero. Output row r of the tile is the sum over j = 0..3 of joined row 5 + j + r times
  filter row j (the filter arrives transposed: row j is tap j of every channel), started from zero. Joined row
  5 + j + r is signal row (512 i + r) + j - 3: the delayed signal at row t + j, t = 512 i + r the output's row in its
  batch. So each tile writes its block of the four-tap sum, and the 32 tiles' blocks fill the result.
-/
import proofs.«163371_j41575283425757_1_alg».proof.Proof.TileRun
import proofs.«163371_j41575283425757_1_alg».proof.Proof.TapSum
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.TileValue

open Idealize.ShloMosaic Idealize.ShloMosaic.TcCoe Idealize.SL.Sem
open Idealize.ShloMosaic.Pipeline (Dat Cfg Window)
open Idealize.ShloMosaic.ValueIdx
open Cert.KernelIdeal.Gen Cert.KernelIdeal.TileRun Cert.TapSum

/-! ## The body's arithmetic, piece by piece -/

section Pieces
variable {F : FTy → Type} [FloatOps F]

/-- The lead (zeroed on a batch's first tile) followed by the tile: 520 rows. -/
def joined (i : grid0.Coords) (v0 : Vec F S1x512x2048 .f32) (v2 : Vec F S1x8x2048 .f32) : FVec F S520x2048 .f32 :=
  concatenate S520x2048 0
    [⟨S8x2048, Scalar.select (Scalar.cmpi .eq (BitVec.ofNat 32 (i 1).val) 0#32) (broadcast S8x2048 (Scalar.ofBits .f32 0x00000000#32))
        (shapeCast S8x2048 v2 Gen.shapeCasts_S1x8x2048_S8x2048)⟩,
     ⟨S512x2048, shapeCast S512x2048 v0 Gen.shapeCasts_S1x512x2048_S512x2048⟩]
    Gen.concatenates_S8x2048_S512x2048_S520x2048_d0

/-- One filter row spread over the tile's 512 rows. -/
def spread (v : Vec F S1x2048 .f32) : FVec F S512x2048 .f32 :=
  broadcastTo S512x2048
    (shapeCast S1x2048 (shapeCast S1x2048 (shapeCast S2048 v Gen.shapeCasts_S1x2048_S2048) Gen.shapeCasts_S2048_S1x2048)
      Gen.shapeCasts_S1x2048_S1x2048)
    Gen.broadcasts_S1x2048_S512x2048

/-- The stored tile is the four shifted windows of the joined rows, each times its filter row, added to zero. -/
theorem pay_eq (i : grid0.Coords) (v0 : Vec F S1x512x2048 .f32) (v2 : Vec F S1x8x2048 .f32) (v10 v18 v26 v34 : Vec F S1x2048 .f32) :
    k0_pay2 i v0 v2 v10 v18 v26 v34
      = addf (addf (addf (addf (broadcast S512x2048 (Scalar.ofBits .f32 0x00000000#32))
          (mulf (extractStridedSlice S512x2048 ![5, 0] (joined i v0 v2) Gen.slices_S520x2048_o5_0_S512x2048) (spread v10)))
          (mulf (extractStridedSlice S512x2048 ![6, 0] (joined i v0 v2) Gen.slices_S520x2048_o6_0_S512x2048) (spread v18)))
          (mulf (extractStridedSlice S512x2048 ![7, 0] (joined i v0 v2) Gen.slices_S520x2048_o7_0_S512x2048) (spread v26)))
          (mulf (extractStridedSlice S512x2048 ![8, 0] (joined i v0 v2) Gen.slices_S520x2048_o8_0_S512x2048) (spread v34)) := rfl

end Pieces

/-- A tile's second grid coordinate is at most 7: the comparison with zero, decided. -/
theorem first_tile_bit : ∀ k : Fin 8, Scalar.cmpi .eq (BitVec.ofNat 32 k.val) 0#32 = if k.val = 0 then 1#1 else 0#1 := by decide

/-- Joined row q at channel d: a lead row (zero on a first tile) for q < 8, tile row q - 8 after. -/
theorem joined_apply (i : grid0.Coords) (v0 : Vec Ideal S1x512x2048 .f32) (v2 : Vec Ideal S1x8x2048 .f32) (q : Fin 520) (d : Fin 2048) :
    joined i v0 v2 (ix2 q d)
      = if h : q.val < 8 then (if (i 1).val = 0 then 0 else v2 (ix3 (0 : Fin 1) (⟨q.val, h⟩ : Fin 8) d))
        else v0 (ix3 (0 : Fin 1) (⟨q.val - 8, by have := q.isLt; omega⟩ : Fin 512) d) := by
  unfold joined
  by_cases h : q.val < 8
  · rw [dif_pos h]
    refine (concatenate_pair_apply_left (t := S520x2048) (s₁ := S8x2048) (s₂ := S512x2048) (0 : Fin 2) _ _ Gen.concatenates_S8x2048_S512x2048_S520x2048_d0 (ix2 q d) rfl
      (ix2 (⟨q.val, h⟩ : Fin 8) d) (fun b => match b with | ⟨0, _⟩ => rfl | ⟨1, _⟩ => rfl)).trans ?_
    have hb := first_tile_bit (i 1)
    by_cases h0 : (i 1).val = 0
    · rw [if_pos h0]; rw [if_pos h0] at hb
      rw [hb, select_one]
      show Ideal.ofBits .f32 0x00000000#32 = 0
      exact Ideal.ofBits_zero_f32
    · rw [if_neg h0]; rw [if_neg h0] at hb
      rw [hb, select_zero]
      exact shapeCast_1ab_ab_apply v2 Gen.shapeCasts_S1x8x2048_S8x2048 (⟨q.val, h⟩ : Fin 8) d
  · rw [dif_neg h]
    have hq := q.isLt
    refine (concatenate_pair_apply_right (t := S520x2048) (s₁ := S8x2048) (s₂ := S512x2048) (0 : Fin 2) _ _ Gen.concatenates_S8x2048_S512x2048_S520x2048_d0 (ix2 q d) rfl rfl
      (ix2 (⟨q.val - 8, by omega⟩ : Fin 512) d) (fun b hb => match b with | ⟨0, _⟩ => absurd rfl hb | ⟨1, _⟩ => rfl)
      (by show q.val - 8 + 8 = q.val; omega)).trans ?_
    exact shapeCast_1ab_ab_apply v0 Gen.shapeCasts_S1x512x2048_S512x2048 (⟨q.val - 8, by omega⟩ : Fin 512) d

/-- A spread filter row at (row p, channel d) is the row's entry at d. -/
theorem spread_apply (v : Vec Ideal S1x2048 .f32) (p : Fin 512) (d : Fin 2048) :
    spread v (ix2 p d) = v (ix2 (0 : Fin 1) d) := by
  unfold spread
  rw [broadcastTo_1b_ab_apply, shapeCast_self, shapeCast_a_1a_apply, shapeCast_1a_a_apply]

/-- A window of 512 joined rows starting at row o, at (row r, channel d). -/
theorem window_apply (o : ℕ) (ho : o + 512 ≤ 520) (hs : S520x2048.Slices ![o, 0] S512x2048) (J : FVec Ideal S520x2048 .f32)
    (r : Fin 512) (d : Fin 2048) :
    extractStridedSlice S512x2048 ![o, 0] J hs (ix2 r d) = J (ix2 (⟨r.val + o, by have := r.isLt; omega⟩ : Fin 520) d) :=
  extractStridedSlice_apply _ J hs (ix2 r d) _ (fun a => match a with
    | ⟨0, _⟩ => by show r.val + o = o + r.val; omega
    | ⟨1, _⟩ => by show d.val = 0 + d.val; omega)

/-! ## The stored tile at an entry -/

theorem hz3 : (![0, 0, 0] : Fin 3 → Nat) = fun _ => 0 := funext fun a => by fin_cases a <;> rfl

/-- Filter row j as the body loads it from the 4 by 2048 block, at channel d. -/
theorem tap_ld (j : ℕ) (hj : j < 4) (inb : ∀ a, (![j, 0] : Fin 2 → Nat) a + S1x2048.size a ≤ S4x2048.size a)
    (x2 : Vec Ideal S4x2048 .f32) (d : Fin 2048) :
    View.ld x2 (Rect.unit (s := S4x2048) ![j, 0] S1x2048.size inb) (ix2 (0 : Fin 1) d) = x2 (ix2 (⟨j, hj⟩ : Fin 4) d) :=
  congrArg x2 (funext fun a => Fin.ext (by
    match a with
    | ⟨0, _⟩ => show j + 1 * 0 = j; omega
    | ⟨1, _⟩ => show 0 + 1 * d.val = d.val; omega))

/-- Output row r of a tile at channel d: joined rows r + 5 … r + 8 against filter rows 0 … 3. The leading zero the
    body adds to is dropped. -/
theorem tileOut_apply (i : grid0.Coords) (x0 : Vec Ideal S1x512x2048 .f32) (x1 : Vec Ideal S1x8x2048 .f32) (x2 : Vec Ideal S4x2048 .f32)
    (u : Fin 1) (r : Fin 512) (d : Fin 2048) :
    tileOut i x0 x1 x2 (ix3 u r d)
      = joined i x0 x1 (ix2 (⟨r.val + 5, by have := r.isLt; omega⟩ : Fin 520) d) * x2 (ix2 (⟨0, by omega⟩ : Fin 4) d)
        + joined i x0 x1 (ix2 (⟨r.val + 6, by have := r.isLt; omega⟩ : Fin 520) d) * x2 (ix2 (⟨1, by omega⟩ : Fin 4) d)
        + joined i x0 x1 (ix2 (⟨r.val + 7, by have := r.isLt; omega⟩ : Fin 520) d) * x2 (ix2 (⟨2, by omega⟩ : Fin 4) d)
        + joined i x0 x1 (ix2 (⟨r.val + 8, by have := r.isLt; omega⟩ : Fin 520) d) * x2 (ix2 (⟨3, by omega⟩ : Fin 4) d) := by
  unfold tileOut
  rw [View.canon_unit_zero hz3]
  unfold k0_pay1
  refine (shapeCast_ab_1ab_apply _ _ u r d).trans ?_
  rw [pay_eq]
  simp only [View.ld_unit_zero (S := S1x512x2048) hz3, View.ld_unit_zero (S := S1x8x2048) hz3]
  simp only [addf_apply, mulf_apply, broadcast_apply]
  rw [window_apply 5 (by omega), window_apply 6 (by omega), window_apply 7 (by omega), window_apply 8 (by omega),
    spread_apply, spread_apply, spread_apply, spread_apply,
    tap_ld 0 (by omega), tap_ld 1 (by omega), tap_ld 2 (by omega), tap_ld 3 (by omega)]
  show Ideal.ofBits .f32 0x00000000#32 + _ + _ + _ + _ = _
  rw [Ideal.ofBits_zero_f32, zero_add]

/-! ## The grid's schedule -/

/-- Every window's block index at a grid point, from the point's batch and tile: the tile, the filter and the result
    follow the point; the lead is the eight-row block just before the tile, and the first block on a first tile. -/
theorem idx_facts : ∀ t : Fin cfg0.N,
      win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 64 * (grid0.coords t 1).val - 1 ∧ win0_1.index t (2 : Fin 3) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val ∧ win0_3.index t (2 : Fin 3) = 0 :=
  (by decide +kernel : ∀ t : Fin grid0.N, _)

/-- Every batch and tile is some grid point's. -/
theorem idx_onto : ∀ (b : Fin 4) (k : Fin 8), ∃ t : Fin cfg0.N, (grid0.coords t 0).val = b.val ∧ (grid0.coords t 1).val = k.val :=
  (by decide +kernel : ∀ (b : Fin 4) (k : Fin 8), ∃ t : Fin grid0.N, (grid0.coords t 0).val = b.val ∧ (grid0.coords t 1).val = k.val)

/-! ## The blocks the body is handed -/

variable (m : (ℓ : Loc nD τ sig) → Buf (Elt Ideal) ℓ) (ρ : Dev nD → PrngReg)

/-- The two argument arrays. -/
abbrev xArr (c : Dev nD) : Sig.Idx → EReal := m ((c : Thread nD τ).loc main_arg0)
abbrev wArr (c : Dev nD) : Taps.Idx → EReal := m ((c : Thread nD τ).loc main_arg1)

/-- The filter as the launch finds it: transposed. -/
theorem V_filter (c : Dev nD) :
    (V m c main_v0 : S4x2048.Idx → EReal) = transpose S4x2048 [1, 0] (wArr m c) Gen.transposes_S2048x4_S4x2048_1_0 := by
  dsimp only [V, hostOps0]; after_results

/-- Row p of the tile block at tile k of batch b is signal row 512 k + p. -/
theorem tile_block (c : Dev nD) (t : Fin cfg0.N) (b : Fin 4) (k : Fin 8) (hb : (grid0.coords t 0).val = b.val)
    (hk : (grid0.coords t 1).val = k.val) (u : Fin 1) (p : Fin 512) (d : Fin 2048) :
    iblk m c 0 t (ix3 u p d) = xArr m c (ix3 b (⟨k.val * 512 + p.val, by have := k.isLt; have := p.isLt; omega⟩ : Fin 4096) d) := by
  obtain ⟨e00, e01, e02, -⟩ := idx_facts t
  show V m c main_arg0 (((cfg0.win 0).blk t).view.emb (ix3 u p d)) = _
  rw [V_main_arg0]
  refine congrArg (xArr m c) (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 512 + 1 * p.val = k.val * 512 + p.val; omega
  | ⟨2, _⟩ => show win0_0.index t (2 : Fin 3) * 2048 + 1 * d.val = d.val; omega

/-- Row q of the lead block at tile k ≥ 1 of batch b is signal row 512 k - 8 + q. -/
theorem lead_block (c : Dev nD) (t : Fin cfg0.N) (b : Fin 4) (k : Fin 8) (hb : (grid0.coords t 0).val = b.val)
    (hk : (grid0.coords t 1).val = k.val) (hk0 : k.val ≠ 0) (u : Fin 1) (q : Fin 8) (d : Fin 2048) :
    iblk m c 1 t (ix3 u q d)
      = xArr m c (ix3 b (⟨k.val * 512 - 8 + q.val, by have := k.isLt; have := q.isLt; omega⟩ : Fin 4096) d) := by
  obtain ⟨-, -, -, e10, e11, e12, -⟩ := idx_facts t
  show V m c main_arg0 (((cfg0.win 1).blk t).view.emb (ix3 u q d)) = _
  rw [V_main_arg0]
  refine congrArg (xArr m c) (funext fun a => Fin.ext ?_)
  have hu : u.val = 0 := by omega
  match a with
  | ⟨0, _⟩ => show win0_1.index t (0 : Fin 3) * 1 + 1 * u.val = b.val; omega
  | ⟨1, _⟩ => show win0_1.index t (1 : Fin 3) * 8 + 1 * q.val = k.val * 512 - 8 + q.val; omega
  | ⟨2, _⟩ => show win0_1.index t (2 : Fin 3) * 2048 + 1 * d.val = d.val; omega

/-- Row j of the filter block at channel d is tap j of channel d. -/
theorem filter_block (c : Dev nD) (t : Fin cfg0.N) (j : Fin 4) (d : Fin 2048) :
    iblk m c 2 t (ix2 j d) = wArr m c (ix2 d j) := by
  obtain ⟨-, -, -, -, -, -, e20, e21, -⟩ := idx_facts t
  show V m c main_v0 (((cfg0.win 2).blk t).view.emb (ix2 j d)) = _
  have he : ((cfg0.win 2).blk t).view.emb (ix2 j d) = ix2 j d := funext fun a => Fin.ext (by
    match a with
    | ⟨0, _⟩ => show win0_2.index t (0 : Fin 2) * 4 + 1 * j.val = j.val; omega
    | ⟨1, _⟩ => show win0_2.index t (1 : Fin 2) * 2048 + 1 * d.val = d.val; omega)
  rw [he]
  show (V m c main_v0 : S4x2048.Idx → EReal) (ix2 j d) = _
  rw [V_filter]
  exact transpose_ix2_apply (wArr m c) Gen.transposes_S2048x4_S4x2048_1_0 j d

/-- Joined row r + 5 + j of tile k of batch b is the delayed signal at row (512 k + r) + j. -/
theorem joined_row (c : Dev nD) (t : Fin cfg0.N) (b : Fin 4) (k : Fin 8) (hb : (grid0.coords t 0).val = b.val)
    (hk : (grid0.coords t 1).val = k.val) (r : Fin 512) (j : ℕ) (hj : j < 4) (d : Fin 2048) :
    joined (grid0.coords t) (iblk m c 0 t) (iblk m c 1 t) (ix2 (⟨r.val + (5 + j), by have := r.isLt; omega⟩ : Fin 520) d)
      = delayed (xArr m c) b (k.val * 512 + r.val + j) d := by
  have hr := r.isLt
  have hkl := k.isLt
  rw [joined_apply]
  by_cases h8 : r.val + (5 + j) < 8
  · rw [dif_pos h8]
    by_cases h0 : (grid0.coords t 1).val = 0
    · rw [if_pos h0]
      have hk0 : k.val = 0 := by omega
      rw [delayed_of_lt _ _ _ _ (by omega)]
    · rw [if_neg h0]
      have hk0 : k.val ≠ 0 := by omega
      rw [lead_block m c t b k hb hk hk0, delayed_of_le _ _ _ _ (by omega) (by omega)]
      exact congrArg (xArr m c) (funext fun a => Fin.ext (by
        match a with
        | ⟨0, _⟩ => rfl
        | ⟨1, _⟩ => show k.val * 512 - 8 + (r.val + (5 + j)) = k.val * 512 + r.val + j - 3; omega
        | ⟨2, _⟩ => rfl))
  · rw [dif_neg h8]
    rw [tile_block m c t b k hb hk, delayed_of_le _ _ _ _ (by omega) (by omega)]
    exact congrArg (xArr m c) (funext fun a => Fin.ext (by
      match a with
      | ⟨0, _⟩ => rfl
      | ⟨1, _⟩ => show k.val * 512 + (r.val + (5 + j) - 8) = k.val * 512 + r.val + j - 3; omega
      | ⟨2, _⟩ => rfl))

/-! ## What a tile writes back, and the result array -/

/-- Tile (b, k) writes back its block of the four-tap sum. -/
theorem flushed_eq (c : Dev nD) (t : Fin cfg0.N) :
    (dats m 0 c).flushed 3 t = ((cfg0.win 3).blk t).view.read (Elt Ideal) (filtered (xArr m c) (wArr m c)) := by
  show (cfg0.win 3).cut (grid0.coords t) ((dats m 0 c).after 3 t) = _
  rw [after_out]
  funext j
  obtain ⟨u, r, d, rfl⟩ : ∃ (u : Fin 1) (r : Fin 512) (d : Fin 2048), j = ix3 u r d := ⟨j 0, j 1, j 2, eq_ix3 j⟩
  have hbl : (grid0.coords t 0).val < 4 := (grid0.coords t 0).isLt
  have hkl : (grid0.coords t 1).val < 8 := (grid0.coords t 1).isLt
  obtain ⟨-, -, -, -, -, -, -, -, e30, e31, e32⟩ := idx_facts t
  have hr := r.isLt
  have hu : u.val = 0 := by omega
  show tileOut (grid0.coords t) (iblk m c 0 t) (iblk m c 1 t) (iblk m c 2 t) (ix3 u r d)
      = filtered (xArr m c) (wArr m c) (((cfg0.win 3).blk t).view.emb (ix3 u r d))
  have hemb : ((cfg0.win 3).blk t).view.emb (ix3 u r d)
      = ix3 (⟨(grid0.coords t 0).val, hbl⟩ : Fin 4) (⟨(grid0.coords t 1).val * 512 + r.val, by omega⟩ : Fin 4096) d :=
    funext fun a => Fin.ext (by
      match a with
      | ⟨0, _⟩ => show win0_3.index t (0 : Fin 3) * 1 + 1 * u.val = (grid0.coords t 0).val; omega
      | ⟨1, _⟩ => show win0_3.index t (1 : Fin 3) * 512 + 1 * r.val = (grid0.coords t 1).val * 512 + r.val; omega
      | ⟨2, _⟩ => show win0_3.index t (2 : Fin 3) * 2048 + 1 * d.val = d.val; omega)
  rw [hemb, filtered_apply, tileOut_apply]
  unfold causal
  refine congrArg₂ (· + ·) (congrArg₂ (· + ·) (congrArg₂ (· + ·) (congrArg₂ (· * ·) ?_ ?_) (congrArg₂ (· * ·) ?_ ?_))
    (congrArg₂ (· * ·) ?_ ?_)) (congrArg₂ (· * ·) ?_ ?_)
  · exact joined_row m c t ⟨_, hbl⟩ ⟨_, hkl⟩ rfl rfl r 0 (by omega) d
  · exact filter_block m c t ⟨0, by omega⟩ d
  · exact joined_row m c t ⟨_, hbl⟩ ⟨_, hkl⟩ rfl rfl r 1 (by omega) d
  · exact filter_block m c t ⟨1, by omega⟩ d
  · exact joined_row m c t ⟨_, hbl⟩ ⟨_, hkl⟩ rfl rfl r 2 (by omega) d
  · exact filter_block m c t ⟨2, by omega⟩ d
  · exact joined_row m c t ⟨_, hbl⟩ ⟨_, hkl⟩ rfl rfl r 3 (by omega) d
  · exact filter_block m c t ⟨3, by omega⟩ d

/-- An entry of the result lies in a tile's block when each coordinate lies in the block's range. -/
theorem mem_blk (t : Fin cfg0.N) (i : S4x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- Row s of batch b lies in tile s / 512 of batch b: the 32 tiles fill the result. -/
theorem cover (i : S4x4096x2048.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 2048 := (i 2).isLt
  obtain ⟨t, hb, hk⟩ := idx_onto ⟨(i 0).val, h0⟩ ⟨(i 1).val / 512, by omega⟩
  have hb' : (grid0.coords t 0).val = (i 0).val := hb
  have hk' : (grid0.coords t 1).val = (i 1).val / 512 := hk
  obtain ⟨-, -, -, -, -, -, -, -, e30, e31, e32⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- After the last tile the result array is the four-tap sum of the two arguments. -/
theorem final (c : Dev nD) : (dats m 0 c).arrAt 3 cfg0.N = filtered (xArr m c) (wArr m c) :=
  (dats m 0 c).arrAt_eq_of_cover 3 (filtered (xArr m c) (wArr m c)) (fun t _ => flushed_eq m c t) cover

/-- The program's run: it ends, the result is the four-tap sum of the arguments, the arguments are unchanged. -/
theorem run : θ_run defs (onTc (τ := τ) (main (F := Ideal))) ⟨m, fun _ => 0, ρ⟩ fun r => ∀ c : Dev nD,
      r.2.mem ((c.tc : Thread nD τ).loc main_v1) = filtered (xArr m c) (wArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.TileValue

end
-- ==== Proof.PaddedTaps.lean ====
/-
  The reference reads as the causal four-tap sum.

  The reference pads the signal with three rows in front (the padding value is the integer 0 made a float: zero), so
  row s of the padded array is the signal delayed by three rows. It then multiplies the padded array shifted up by
  j = 0, 1, 2, 3 rows with column j of the filter, stretched over batches and rows, and adds the four products from
  the left: at (b, t, d) that is the sum over j of x̄[b, t + j, d] · w[d, j].
-/
import proofs.«163371_j41575283425757_1_alg».proof.Proof.Gen.ReferenceIdeal.Read
import proofs.«163371_j41575283425757_1_alg».proof.Proof.TapSum
import Idealize.ShloMosaic.Lib.KernelVsHost

noncomputable section

namespace Cert.ReferenceIdeal.PaddedTaps

open Cert.ReferenceIdeal Cert.ReferenceIdeal.Gen Cert.ReferenceIdeal.Read
open Idealize.ShloMosaic Idealize.ShloMosaic.ValueIdx Cert.TapSum

/-- The padding value: the integer zero as a float is the real number zero. -/
theorem pad_value (i : S_.Idx) : val_main_call0_v0 (F := Ideal) i = 0 := by
  rw [val_main_call0_v0_apply, val_main_c_apply]
  show (((0#32 : BitVec 32).toInt : ℝ) : EReal) = 0
  simp

/-- Row s of the padded array is the signal delayed by three rows. -/
theorem padded_apply (x : FVec Ideal S4x4096x2048 .f32) (b : Fin 4) (s : Fin 4099) (d : Fin 2048) :
    val_main_v0 (F := Ideal) x (ix3 b s d) = delayed x b s.val d := by
  unfold val_main_v0
  by_cases h : 3 ≤ s.val
  · have h' : s.val - 3 < 4096 := by omega
    rw [delayed_of_le x b s.val d h h']
    exact pad_apply_of_inside _ _ _ x _ pads_S4x4096x2048_S4x4099x2048_000_300_000 h_S_ (ix3 b s d)
      (ix3 b ⟨s.val - 3, h'⟩ d) (fun a => match a with
        | ⟨0, _⟩ => by show b.val = 0 + b.val * (0 + 1); omega
        | ⟨1, _⟩ => by show s.val = 3 + (s.val - 3) * (0 + 1); omega
        | ⟨2, _⟩ => by show d.val = 0 + d.val * (0 + 1); omega)
  · rw [delayed_of_lt x b s.val d (by omega)]
    rw [pad_apply_of_not_inside _ _ _ x _ pads_S4x4096x2048_S4x4099x2048_000_300_000 h_S_ (ix3 b s d) (1 : Fin 3)
      (by intro hin; exact h hin.1)]
    exact pad_value _

/-- The padded array shifted up by j rows, at (b, t, d). -/
theorem shift0 (x : FVec Ideal S4x4096x2048 .f32) (b : Fin 4) (t : Fin 4096) (d : Fin 2048) :
    val_main_v1 (F := Ideal) x (ix3 b t d) = delayed x b (t.val + 0) d := by
  rw [val_main_v1_apply]
  have e : idx_main_v1 (ix3 b t d) = ix3 b (⟨t.val + 0, by omega⟩ : Fin 4099) d :=
    funext fun a => Fin.ext (by match a with | ⟨0, _⟩ => rfl | ⟨1, _⟩ => rfl | ⟨2, _⟩ => rfl)
  rw [e, padded_apply]
theorem shift1 (x : FVec Ideal S4x4096x2048 .f32) (b : Fin 4) (t : Fin 4096) (d : Fin 2048) :
    val_main_v7 (F := Ideal) x (ix3 b t d) = delayed x b (t.val + 1) d := by
  rw [val_main_v7_apply]
  have e : idx_main_v7 (ix3 b t d) = ix3 b (⟨t.val + 1, by omega⟩ : Fin 4099) d :=
    funext fun a => Fin.ext (by match a with | ⟨0, _⟩ => rfl | ⟨1, _⟩ => exact Nat.add_comm _ _ | ⟨2, _⟩ => rfl)
  rw [e, padded_apply]
theorem shift2 (x : FVec Ideal S4x4096x2048 .f32) (b : Fin 4) (t : Fin 4096) (d : Fin 2048) :
    val_main_v14 (F := Ideal) x (ix3 b t d) = delayed x b (t.val + 2) d := by
  rw [val_main_v14_apply]
  have e : idx_main_v14 (ix3 b t d) = ix3 b (⟨t.val + 2, by omega⟩ : Fin 4099) d :=
    funext fun a => Fin.ext (by match a with | ⟨0, _⟩ => rfl | ⟨1, _⟩ => exact Nat.add_comm _ _ | ⟨2, _⟩ => rfl)
  rw [e, padded_apply]
theorem shift3 (x : FVec Ideal S4x4096x2048 .f32) (b : Fin 4) (t : Fin 4096) (d : Fin 2048) :
    val_main_v21 (F := Ideal) x (ix3 b t d) = delayed x b (t.val + 3) d := by
  rw [val_main_v21_apply]
  have e : idx_main_v21 (ix3 b t d) = ix3 b (⟨t.val + 3, by omega⟩ : Fin 4099) d :=
    funext fun a => Fin.ext (by match a with | ⟨0, _⟩ => rfl | ⟨1, _⟩ => exact Nat.add_comm _ _ | ⟨2, _⟩ => rfl)
  rw [e, padded_apply]

/-- Column j of the filter, stretched over batches and rows, at (b, t, d), is w[d, j]. -/
theorem column0 (w : FVec Ideal S2048x4 .f32) (b : Fin 4) (t : Fin 4096) (d : Fin 2048) :
    val_main_v5 (F := Ideal) w (ix3 b t d) = w (ix2 d 0) := by
  rw [val_main_v5_apply, val_main_v4_apply, val_main_v3_apply, val_main_v2_apply]
  exact congrArg w (funext fun a => Fin.ext (by match a with | ⟨0, _⟩ => exact Nat.div_one _ | ⟨1, _⟩ => rfl))
theorem column1 (w : FVec Ideal S2048x4 .f32) (b : Fin 4) (t : Fin 4096) (d : Fin 2048) :
    val_main_v11 (F := Ideal) w (ix3 b t d) = w (ix2 d 1) := by
  rw [val_main_v11_apply, val_main_v10_apply, val_main_v9_apply, val_main_v8_apply]
  exact congrArg w (funext fun a => Fin.ext (by match a with | ⟨0, _⟩ => exact Nat.div_one _ | ⟨1, _⟩ => rfl))
theorem column2 (w : FVec Ideal S2048x4 .f32) (b : Fin 4) (t : Fin 4096) (d : Fin 2048) :
    val_main_v18 (F := Ideal) w (ix3 b t d) = w (ix2 d 2) := by
  rw [val_main_v18_apply, val_main_v17_apply, val_main_v16_apply, val_main_v15_apply]
  exact congrArg w (funext fun a => Fin.ext (by match a with | ⟨0, _⟩ => exact Nat.div_one _ | ⟨1, _⟩ => rfl))
theorem column3 (w : FVec Ideal S2048x4 .f32) (b : Fin 4) (t : Fin 4096) (d : Fin 2048) :
    val_main_v25 (F := Ideal) w (ix3 b t d) = w (ix2 d 3) := by
  rw [val_main_v25_apply, val_main_v24_apply, val_main_v23_apply, val_main_v22_apply]
  exact congrArg w (funext fun a => Fin.ext (by match a with | ⟨0, _⟩ => exact Nat.div_one _ | ⟨1, _⟩ => rfl))

/-- The reference's result is the causal four-tap sum. -/
theorem reference_eq (x : FVec Ideal S4x4096x2048 .f32) (w : FVec Ideal S2048x4 .f32) :
    val_main_v27 (F := Ideal) x w = filtered x w := by
  funext i
  obtain ⟨b, t, d, rfl⟩ : ∃ (b : Fin 4) (t : Fin 4096) (d : Fin 2048), i = ix3 b t d := ⟨i 0, i 1, i 2, eq_ix3 i⟩
  rw [filtered_apply, val_main_v27_apply, val_main_v26_apply, val_main_v20_apply, val_main_v19_apply, val_main_v13_apply,
    val_main_v12_apply, val_main_v6_apply, shift0, shift1, shift2, shift3, column0, column1, column2, column3]
  rfl

end Cert.ReferenceIdeal.PaddedTaps

end
-- ==== Proof.lean ====
/-
  A depthwise causal convolution with four taps, tiled, against its plain definition.

  The signal x has 4 batches of 4096 rows of 2048 channels, the filter w four taps per channel. Both programs compute

      y[b, t, d] = x[b, t - 3, d] · w[d, 0] + x[b, t - 2, d] · w[d, 1] + x[b, t - 1, d] · w[d, 2] + x[b, t, d] · w[d, 3],

  rows before the signal's start counting as zero (Proof/TapSum.lean). The reference pads three zero rows in front
  and adds four shifted products (Proof/PaddedTaps.lean). The kernel walks 4 by 8 tiles of 512 rows; each tile reads
  its own rows and the eight rows before it (zeroed on a batch's first tile), joins them, and adds the four shifted
  products to zero (Proof/TileValue.lean); that each tile's run ends and leaves the arguments alone, the signal being
  read through two windows at once, is Proof/TileRun.lean, for the word-level program as for the idealized one.
  Over the extended reals the two results are equal entry by entry with no condition on the inputs: the kernel's
  leading zero is the unit of addition, and products and sums stand in the same order on both sides.
-/
import proofs.«163371_j41575283425757_1_alg».proof.Defs
import proofs.«163371_j41575283425757_1_alg».proof.Proof.Gen.Kernel
import proofs.«163371_j41575283425757_1_alg».proof.Proof.Gen.KernelIdeal
import proofs.«163371_j41575283425757_1_alg».proof.Proof.Gen.ReferenceIdeal
import proofs.«163371_j41575283425757_1_alg».proof.Proof.Gen.Pre_finite_inputs
import proofs.«163371_j41575283425757_1_alg».proof.Proof.Gen.ReferenceIdeal.Run
import proofs.«163371_j41575283425757_1_alg».proof.Proof.Gen.ReferenceIdeal.Read
import proofs.«163371_j41575283425757_1_alg».proof.Proof.TileRun
import proofs.«163371_j41575283425757_1_alg».proof.Proof.TileRunBits
import proofs.«163371_j41575283425757_1_alg».proof.Proof.TileValue
import proofs.«163371_j41575283425757_1_alg».proof.Proof.PaddedTaps
import Idealize.ShloMosaic.Adequacy
import Idealize.ShloMosaic.Init

noncomputable section

namespace Cert.Proof

open Idealize.ShloMosaic Idealize.SL.Sem

/-- The word-level program runs to the end and leaves both arguments as they were. -/
theorem frame_kernel : Cert.frame_Kernel (hKernel := Cert.Kernel.Gen.facts) (hPre_finite_inputs := Cert.Pre_finite_inputs.Gen.facts) :=
  fun m ρ _ => Cert.Kernel.TileRun.frame m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.TileRun.frame m ρ

/-- The reference is a straight line of array operations: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the causal four-tap sum of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.TapSum.filtered (Cert.KernelIdeal.TileValue.xArr m c) (Cert.KernelIdeal.TileValue.wArr m c),
    Cert.KernelIdeal.TileValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.PaddedTaps.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
